-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S256x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x16x128 : Shape := ⟨3, ![100000, 16, 128]⟩
abbrev S128x128 : Shape := ⟨2, ![128, 128]⟩
abbrev S1x128 : Shape := ⟨2, ![1, 128]⟩
abbrev S1000x128 : Shape := ⟨2, ![1000, 128]⟩
abbrev S1000x16x128 : Shape := ⟨3, ![1000, 16, 128]⟩
abbrev S1000x1x128 : Shape := ⟨3, ![1000, 1, 128]⟩

abbrev nBuf : Space → Nat
  | .hbm => 34
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x128, .f32⟩
  | .hbm, ⟨25, _⟩ => ⟨S1600000x128, .i1⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S100000x16x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x16x128, .f32⟩
  | .local _ .vmem, ⟨3, _⟩ => ⟨S1000x16x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1000x128, .f32⟩
  | .local _ .vmem, ⟨8, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S1600000x128_S100000x16x128 : S1600000x128.ShapeCasts S100000x16x128
  slices_S256x128_S128x128_0_0 : S256x128.Slices ![0, 0] S128x128
  slices_S256x128_S128x128_128_0 : S256x128.Slices ![128, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  shapeCasts_S1000x128_S1000x1x128 : S1000x128.ShapeCasts S1000x1x128
  broadcasts_S1000x1x128_S1000x16x128 : S1000x1x128.Broadcasts S1000x16x128
  reduces_S1000x16x128_S1000x128 : S1000x16x128.Reduces [1] S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  gather_S100000x128_S1600000x1_S1600000x128_1_0_n_n_0_1_1128_wf : GatherDims.WF S100000x128 S1600000x1 S1600000x128 [1] [0] [] [0] [] 1 ![1, 128]
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x128.size a ≤ S100000x16x128.size a
  hwx0_1 : ∀ i : grid0.Coords, EltTy.bits .f32 = 32 ∨ (Rect.block (s := S100000x16x128) S1000x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S100000x128.size a
  hwx0_5 : ∀ i : grid0.Coords, EltTy.bits .f32 = 32 ∨ (Rect.block (s := S100000x128) S1000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1000x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x16x128 : Shape := ⟨3, ![100000, 16, 128]⟩
abbrev S100000x1x128 : Shape := ⟨3, ![100000, 1, 128]⟩
abbrev S100000x256 : Shape := ⟨2, ![100000, 256]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x128, .f32⟩
  | .hbm, ⟨25, _⟩ => ⟨S1600000x128, .i1⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S100000x16x128, .f32⟩
  | .hbm, ⟨30, _⟩ => ⟨S100000x1x128, .f32⟩
  | .hbm, ⟨31, _⟩ => ⟨S100000x16x128, .f32⟩
  | .hbm, ⟨32, _⟩ => ⟨S100000x16x128, .f32⟩
  | .hbm, ⟨33, _⟩ => ⟨S_, .f32⟩
  | .hbm, ⟨34, _⟩ => ⟨S100000x128, .f32⟩
  | .hbm, ⟨35, _⟩ => ⟨S100000x256, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S1600000x128_S100000x16x128 : S1600000x128.ShapeCasts S100000x16x128
  bcast_S100000x128_S100000x1x128_0_2 : S100000x128.BroadcastsInDim S100000x1x128 (![0, 2] : Fin 2 → Fin S100000x1x128.rank)
  bcast_S100000x1x128_S100000x16x128_0_1_2 : S100000x1x128.BroadcastsInDim S100000x16x128 (![0, 1, 2] : Fin 3 → Fin S100000x16x128.rank)
  reducesTo_S100000x16x128_S100000x128_d1 : S100000x16x128.ReducesTo [1] S100000x128
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  What both programs compute, as one function of the four argument arrays and the gathered neighbour features.

  For node `n` and output channel `o`:
      out[n, o] = max( Σ_{k<128} x[n,k] · W[k,o]  +  Σ_{k<128} a[n,k] · W[128+k,o]  +  b[o] , 0 )
  where a[n,k] = max_{j<16} ( xj[n,j,k] − x[n,k] ), the maximum taken from −∞.
  Everything is read on the extended reals; only commutativity and associativity of + are used to relate the two
  arrangements of the sum (one sum over the 256 rows of W against two sums over its halves), so no finiteness is needed.
-/
import Idealize.ShloMosaic.PureOps.Ideal
import Idealize.ShloMosaic.Lib.ValueIdx

noncomputable section

open scoped BigOperators

namespace Cert.MRConv

open Idealize.ShloMosaic Idealize.ShloMosaic.ValueIdx

/-- Row `k` of the upper half of the weight matrix. -/
def lo (k : Fin 128) : Fin 256 := ⟨k.val, by omega⟩
/-- Row `128 + k`: row `k` of the lower half. -/
def hi (k : Fin 128) : Fin 256 := ⟨128 + k.val, by omega⟩

/-- The max-relative feature of node `n` at channel `c`: the largest `xj[n,j,c] − x[n,c]` over the sixteen neighbours,
    from −∞ (the pattern `0xFF800000`). -/
def aggr (x : FVec Ideal ⟨2, ![100000, 128]⟩ .f32) (xj : FVec Ideal ⟨3, ![100000, 16, 128]⟩ .f32)
    (n : Fin 100000) (c : Fin 128) : EReal :=
  (Finset.univ : Finset (Fin 16)).fold max (Ideal.ofBits .f32 0xFF800000#32) fun j => xj (ix3 n j c) - x (ix2 n c)

/-- One entry of the result. -/
def outAt (x : FVec Ideal ⟨2, ![100000, 128]⟩ .f32) (xj : FVec Ideal ⟨3, ![100000, 16, 128]⟩ .f32)
    (W : FVec Ideal ⟨2, ![256, 128]⟩ .f32) (b : FVec Ideal ⟨1, ![128]⟩ .f32) (n : Fin 100000) (o : Fin 128) : EReal :=
  max ((∑ k : Fin 128, x (ix2 n k) * W (ix2 (lo k) o)) + (∑ k : Fin 128, aggr x xj n k * W (ix2 (hi k) o)) + b (ix1 o))
    (Ideal.ofBits .f32 0x00000000#32)

/-- The whole result array. -/
def out (x : FVec Ideal ⟨2, ![100000, 128]⟩ .f32) (xj : FVec Ideal ⟨3, ![100000, 16, 128]⟩ .f32)
    (W : FVec Ideal ⟨2, ![256, 128]⟩ .f32) (b : FVec Ideal ⟨1, ![128]⟩ .f32) : FVec Ideal ⟨2, ![100000, 128]⟩ .f32 :=
  fun i => outAt x xj W b (i 0) (i 1)

/-! ## The neighbour features, with every operation of the host chain an argument

Both programs compute the gathered neighbour features [100000, 16, 128] by the same chain of host operations: row 0 of the
edge list as a flat index vector; a negative index moved up by the number of nodes; the index vector as a column; the test
that an index lies in range; the rows of `x` at the indices; an out-of-range row replaced by a fill word; sixteen rows
regrouped per node. `chain` is that composition with each operation (and each constant) passed in, so that what a program
computes can be named before any of its operations is opened. -/

/-- Arrays of a literal shape and element type at the ideal values. -/
abbrev Arr (s : Shape) (e : EltTy) : Type := (⟨s, e⟩ : BufTy).Contents (Elt Ideal)

/-- The chain's composition. `idx0`: the flat index vector; `col`: the wrapped indices as a column; the result: the selected
    rows, regrouped. -/
def chain
    (h1 : (⟨2, ![1, 1600000]⟩ : Shape).ShapeCasts ⟨1, ![1600000]⟩)
    (h2 : (⟨2, ![1600000, 128]⟩ : Shape).ShapeCasts ⟨3, ![100000, 16, 128]⟩)
    (fS : Arr ⟨2, ![2, 1600000]⟩ .i32 → Arr ⟨2, ![1, 1600000]⟩ .i32)
    (k0 k1 : Arr ⟨0, ![]⟩ .i32) (fB0 : Arr ⟨0, ![]⟩ .i32 → Arr ⟨1, ![1600000]⟩ .i32)
    (fLt : Arr ⟨1, ![1600000]⟩ .i32 → Arr ⟨1, ![1600000]⟩ .i32 → Arr ⟨1, ![1600000]⟩ .i1)
    (fAdd : Arr ⟨1, ![1600000]⟩ .i32 → Arr ⟨1, ![1600000]⟩ .i32 → Arr ⟨1, ![1600000]⟩ .i32)
    (fSel : Arr ⟨1, ![1600000]⟩ .i1 → Arr ⟨1, ![1600000]⟩ .i32 → Arr ⟨1, ![1600000]⟩ .i32 → Arr ⟨1, ![1600000]⟩ .i32)
    (fB1 : Arr ⟨1, ![1600000]⟩ .i32 → Arr ⟨2, ![1600000, 1]⟩ .i32)
    (k2 : Arr ⟨1, ![1]⟩ .i32) (k3 : Arr ⟨0, ![]⟩ .i32) (fB2 : Arr ⟨0, ![]⟩ .i32 → Arr ⟨2, ![1600000, 1]⟩ .i32)
    (fGe : Arr ⟨2, ![1600000, 1]⟩ .i32 → Arr ⟨2, ![1600000, 1]⟩ .i32 → Arr ⟨2, ![1600000, 1]⟩ .i1)
    (fB3 : Arr ⟨1, ![1]⟩ .i32 → Arr ⟨2, ![1, 1]⟩ .i32) (fB4 : Arr ⟨2, ![1, 1]⟩ .i32 → Arr ⟨2, ![1600000, 1]⟩ .i32)
    (fLe : Arr ⟨2, ![1600000, 1]⟩ .i32 → Arr ⟨2, ![1600000, 1]⟩ .i32 → Arr ⟨2, ![1600000, 1]⟩ .i1)
    (fAnd : Arr ⟨2, ![1600000, 1]⟩ .i1 → Arr ⟨2, ![1600000, 1]⟩ .i1 → Arr ⟨2, ![1600000, 1]⟩ .i1)
    (k4 : Arr ⟨0, ![]⟩ .i1) (fRed : Arr ⟨2, ![1600000, 1]⟩ .i1 → Arr ⟨0, ![]⟩ .i1 → Arr ⟨1, ![1600000]⟩ .i1)
    (fGat : Arr ⟨2, ![100000, 128]⟩ .f32 → Arr ⟨2, ![1600000, 1]⟩ .i32 → Arr ⟨2, ![1600000, 128]⟩ .f32)
    (fB5 : Arr ⟨1, ![1600000]⟩ .i1 → Arr ⟨2, ![1600000, 128]⟩ .i1)
    (k5 : Arr ⟨0, ![]⟩ .f32) (fB6 : Arr ⟨0, ![]⟩ .f32 → Arr ⟨2, ![1600000, 128]⟩ .f32)
    (fSel2 : Arr ⟨2, ![1600000, 128]⟩ .i1 → Arr ⟨2, ![1600000, 128]⟩ .f32 → Arr ⟨2, ![1600000, 128]⟩ .f32 → Arr ⟨2, ![1600000, 128]⟩ .f32)
    (x : Arr ⟨2, ![100000, 128]⟩ .f32) (e : Arr ⟨2, ![2, 1600000]⟩ .i32) : Arr ⟨3, ![100000, 16, 128]⟩ .f32 :=
  let idx0 : Arr ⟨1, ![1600000]⟩ .i32 := shapeCast ⟨1, ![1600000]⟩ (fS e) h1
  let col : Arr ⟨2, ![1600000, 1]⟩ .i32 := fB1 (fSel (fLt idx0 (fB0 k0)) (fAdd idx0 (fB0 k1)) idx0)
  shapeCast ⟨3, ![100000, 16, 128]⟩
    (fSel2 (fB5 (fRed (fAnd (fGe col (fB2 k3)) (fLe col (fB4 (fB3 k2)))) k4)) (fGat x col) (fB6 k5)) h2

/-- A sum over the 256 rows is the sum over the upper half plus the sum over the lower half. -/
theorem sum_rows (f : Fin 256 → EReal) : ∑ k : Fin 256, f k = (∑ k : Fin 128, f (lo k)) + ∑ k : Fin 128, f (hi k) := by
  have h := Fin.sum_univ_add (a := 128) (b := 128) (f : Fin (128 + 128) → EReal)
  refine h.trans ?_
  congr 1

end Cert.MRConv

end
-- ==== Proof.KernelPayload.lean ====
/-
  The kernel body's one store, read at an entry of its block.

  At a grid point the body loads a block `x0` of 1000 rows of `x`, the block `x1` of their sixteen gathered neighbours, the two
  halves `w1`, `w2` of the weight matrix and the bias row `bb`, and stores
      max( x0 · w1 + a · w2 + bb , 0 ),   a[p,k] = max_j ( x1[p,j,k] − x0[p,k] ) from −∞.
  On the extended reals the narrowing of the matrix products' operands changes nothing and each product into a zero
  accumulator is the plain sum over the contracted axis, so entry (p, o) of the stored block is
      max( Σ_k x0[p,k]·w1[k,o] + Σ_k a[p,k]·w2[k,o] + bb[0,o] , 0 ).
  `block_value` then says: if the loaded blocks are the rows 1000·t … 1000·t+999 of the arrays `X`, `XJ`, the two halves of
  `W` and the row `B`, that entry is the specification's `outAt` at row 1000·t + p.
-/
import proofs.«133552_j80358838108753_1_alg».proof.Proof.Gen.KernelIdeal.Skeleton
import proofs.«133552_j80358838108753_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The matrix products: which entries of the operands meet at output entry `i` and contraction position `q` -/

/-- The left operand is read in row `i 0`. -/
theorem lhs_mm_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- … at the contracted column. -/
theorem lhs_mm_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q

/-- The right operand is read in the contracted row … -/
theorem rhs_mm_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q

/-- … and column `i 1`. -/
theorem rhs_mm_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- A [1000,128] × [128,128] product into the zero accumulator, at entry (p, o): the sum over the 128 contracted positions. -/
theorem matmul_at (l : FVec Ideal S1000x128 .bf16) (r : FVec Ideal S128x128 .bf16) (p : Fin 1000) (o : Fin 128) :
    matmul dot_S1000x128_S128x128_S1000x128_1_0_0_1_n_n none l r (constant (F := Ideal) S1000x128 .f32 0x00000000#32) (ix2 p o)
      = ∑ k : Fin 128, l (ix2 p k) * r (ix2 k o) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p o) ((contrEquiv1 dot_S1000x128_S128x128_S1000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S1000x128_S128x128_S1000x128_1_0_0_1_n_n.rhsIdx (ix2 p o) ((contrEquiv1 dot_S1000x128_S128x128_S1000x128_1_0_0_1_n_n 128 rfl rfl).symm k) = ix2 k o :=
    funext fun a => Fin.ext (by
      match a with
      | ⟨0, _⟩ => exact (rhs_mm_0 _ _).trans hk
      | ⟨1, _⟩ => exact rhs_mm_1 _ _)
  rw [el, er]

/-! ## The maximum over the sixteen neighbours -/

/-- The reduction over the middle axis, at (p, k): the maximum from −∞ over the sixteen entries (p, j, k). -/
theorem rowmax_at (v : FVec Ideal S1000x16x128 .f32) (p : Fin 1000) (k : Fin 128) :
    multiReduction .maximumf [1] S1000x128 v 0xFF800000#32 reduces_S1000x16x128_S1000x128 (.inl rfl) rfl (ix2 p k)
      = (Finset.univ : Finset (Fin 16)).fold max (Ideal.ofBits .f32 0xFF800000#32) fun j => v (ix3 p j k) := by
  refine (Ideal.multiReduction_maximumf_single v 0xFF800000#32 reduces_S1000x16x128_S1000x128 (.inl rfl) rfl (ix2 p k)).trans ?_
  refine Finset.fold_congr fun j _ => ?_
  show v (reduces_S1000x16x128_S1000x128.lift (ix2 p k) j) = v (ix3 p j k)
  exact congrArg v (funext fun a => Fin.ext (by
    match a with
    | ⟨0, _⟩ => rfl
    | ⟨1, _⟩ => rfl
    | ⟨2, _⟩ => rfl))

/-- A row of the block, repeated for each of the sixteen neighbours, read at (p, j, k): the block at (p, k). -/
theorem xrow_at (x0 : FVec Ideal S1000x128 .f32) (p : Fin 1000) (j : Fin 16) (k : Fin 128) :
    broadcastTo S1000x16x128 (shapeCast S1000x1x128 x0 shapeCasts_S1000x128_S1000x1x128) broadcasts_S1000x1x128_S1000x16x128 (ix3 p j k)
      = x0 (ix2 p k) := by
  refine (broadcastTo_apply _ _ (ix3 p j k) (ix3 p (0 : Fin 1) k) fun a => ?_).trans ?_
  · match a with
    | ⟨0, _⟩ => rfl
    | ⟨1, _⟩ => rfl
    | ⟨2, _⟩ => rfl
  · refine shapeCast_apply _ _ (ix3 p (0 : Fin 1) k) (ix2 p k) ?_
    rw [Shape.rowMajor_val_two, Shape.rowMajor_val_three]
    show p.val * 128 + k.val = (p.val * 1 + 0) * 128 + k.val
    omega

/-- The bias row repeated down the block, read at (p, o). -/
theorem bias_at (bb : FVec Ideal S1x128 .f32) (p : Fin 1000) (o : Fin 128) :
    broadcastTo S1000x128 (shapeCast S1x128 bb shapeCasts_S1x128_S1x128) broadcasts_S1x128_S1000x128 (ix2 p o)
      = bb (ix2 (0 : Fin 1) o) := by
  rw [shapeCast_self]
  exact broadcastTo_1b_ab_apply bb _ p o

/-! ## The stored block at an entry -/

/-- Entry (p, o) of what the body stores, in terms of the loaded blocks. -/
theorem pay_at (x0 : FVec Ideal S1000x128 .f32) (x1 : FVec Ideal S1000x16x128 .f32) (w1 w2 : FVec Ideal S128x128 .f32)
    (bb : FVec Ideal S1x128 .f32) (p : Fin 1000) (o : Fin 128) :
    k0_pay1 (F := Ideal) x0 x1 w1 w2 bb (ix2 p o)
      = max ((∑ k : Fin 128, x0 (ix2 p k) * w1 (ix2 k o))
          + (∑ k : Fin 128, ((Finset.univ : Finset (Fin 16)).fold max (Ideal.ofBits .f32 0xFF800000#32)
              fun j => x1 (ix3 p j k) - x0 (ix2 p k)) * w2 (ix2 k o))
          + bb (ix2 (0 : Fin 1) o)) (Ideal.ofBits .f32 0x00000000#32) := by
  unfold k0_pay1
  dsimp only
  rw [maximumf_apply, addf_apply, addf_apply, matmul_at, matmul_at, bias_at, broadcast_apply]
  simp only [truncf_apply, shapeCast_self]
  refine congrArg₂ max (congrArg₂ HAdd.hAdd (congrArg₂ HAdd.hAdd rfl
    (Finset.sum_congr rfl fun k _ => congrArg₂ HMul.hMul ?_ rfl)) rfl) rfl
  refine (rowmax_at _ p k).trans (Finset.fold_congr fun j _ => ?_)
  rw [subf_apply, xrow_at]

/-- If the loaded blocks are rows `1000·t + p` of `X` and of `XJ`, the upper and the lower half of `W`, and the row `B`, the stored
    entry (p, o) is the specification's value at row `n = 1000·t + p`, channel `o`. -/
theorem block_value (X : FVec Ideal ⟨2, ![100000, 128]⟩ .f32) (XJ : FVec Ideal ⟨3, ![100000, 16, 128]⟩ .f32)
    (W : FVec Ideal ⟨2, ![256, 128]⟩ .f32) (B : FVec Ideal ⟨1, ![128]⟩ .f32) (t : Nat)
    (x0 : FVec Ideal S1000x128 .f32) (x1 : FVec Ideal S1000x16x128 .f32) (w1 w2 : FVec Ideal S128x128 .f32)
    (bb : FVec Ideal S1x128 .f32)
    (h0 : ∀ (p : Fin 1000) (k : Fin 128) (n : Fin 100000), n.val = 1000 * t + p.val → x0 (ix2 p k) = X (ix2 n k))
    (h1 : ∀ (p : Fin 1000) (j : Fin 16) (k : Fin 128) (n : Fin 100000), n.val = 1000 * t + p.val → x1 (ix3 p j k) = XJ (ix3 n j k))
    (h2 : ∀ (k o : Fin 128), w1 (ix2 k o) = W (ix2 (Cert.MRConv.lo k) o))
    (h3 : ∀ (k o : Fin 128), w2 (ix2 k o) = W (ix2 (Cert.MRConv.hi k) o))
    (h4 : ∀ o : Fin 128, bb (ix2 (0 : Fin 1) o) = B (ix1 o))
    (p : Fin 1000) (o : Fin 128) (n : Fin 100000) (hn : n.val = 1000 * t + p.val) :
    k0_pay1 (F := Ideal) x0 x1 w1 w2 bb (ix2 p o) = Cert.MRConv.outAt X XJ W B n o := by
  rw [pay_at]
  unfold Cert.MRConv.outAt Cert.MRConv.aggr
  simp only [h0 p _ n hn, h1 p _ _ n hn, h2, h3, h4]

/-- The specification's array at an index is its entry at the index's two coordinates. -/
theorem out_apply (X : FVec Ideal ⟨2, ![100000, 128]⟩ .f32) (XJ : FVec Ideal ⟨3, ![100000, 16, 128]⟩ .f32)
    (W : FVec Ideal ⟨2, ![256, 128]⟩ .f32) (B : FVec Ideal ⟨1, ![128]⟩ .f32) (i : (⟨2, ![100000, 128]⟩ : Shape).Idx) :
    Cert.MRConv.out X XJ W B i = Cert.MRConv.outAt X XJ W B (i 0) (i 1) := rfl

/-- The same at any entry `y` of the block, the array entry named by its two coordinates. -/
theorem block_value_at (X : FVec Ideal ⟨2, ![100000, 128]⟩ .f32) (XJ : FVec Ideal ⟨3, ![100000, 16, 128]⟩ .f32)
    (W : FVec Ideal ⟨2, ![256, 128]⟩ .f32) (B : FVec Ideal ⟨1, ![128]⟩ .f32) (t : Nat)
    (x0 : FVec Ideal S1000x128 .f32) (x1 : FVec Ideal S1000x16x128 .f32) (w1 w2 : FVec Ideal S128x128 .f32)
    (bb : FVec Ideal S1x128 .f32)
    (h0 : ∀ (p : Fin 1000) (k : Fin 128) (n : Fin 100000), n.val = 1000 * t + p.val → x0 (ix2 p k) = X (ix2 n k))
    (h1 : ∀ (p : Fin 1000) (j : Fin 16) (k : Fin 128) (n : Fin 100000), n.val = 1000 * t + p.val → x1 (ix3 p j k) = XJ (ix3 n j k))
    (h2 : ∀ (k o : Fin 128), w1 (ix2 k o) = W (ix2 (Cert.MRConv.lo k) o))
    (h3 : ∀ (k o : Fin 128), w2 (ix2 k o) = W (ix2 (Cert.MRConv.hi k) o))
    (h4 : ∀ o : Fin 128, bb (ix2 (0 : Fin 1) o) = B (ix1 o))
    (y : S1000x128.Idx) (n : Fin 100000) (o : Fin 128) (hn : n.val = 1000 * t + (y 0).val) (ho : o.val = (y 1).val) :
    k0_pay1 (F := Ideal) x0 x1 w1 w2 bb y = Cert.MRConv.outAt X XJ W B n o := by
  obtain ⟨p, q, rfl⟩ : ∃ (p : Fin 1000) (q : Fin 128), y = ix2 p q := ⟨y 0, y 1, eq_ix2 y⟩
  obtain rfl : o = q := Fin.ext ho
  exact block_value X XJ W B t x0 x1 w1 w2 bb h0 h1 h2 h3 h4 p o n hn

end Cert.KernelIdeal.Hand

end
-- ==== Proof.KernelEntry.lean ====
/-
  What the region finds in the arrays its windows stage, as functions of the argument arrays.

  Before the region the host slices row 0 of the edge list, gathers the rows of `x` it names (`neighbours`: negative indices
  wrapped, out-of-range rows filled, sixteen rows regrouped per node), cuts `W` into its upper and lower half and views
  the bias as one row. `neighbours` is the specification's `chain` at this program's operations; it is never opened: the
  reference applies the same chain.
  The operations of the outlined gather function are stated over references that carry their tensor type, and move values
  to and from a buffer's own type by a transport along an equation between identical types. Those transports are removed by
  rewriting (each is the identity), never by unfolding a whole term.
-/
import proofs.«133552_j80358838108753_1_alg».proof.Proof.Gen.KernelIdeal.Frame
import proofs.«133552_j80358838108753_1_alg».proof.Proof.Spec
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## The gathered neighbour features -/

/-- The neighbour features [100000, 16, 128] as the host chain before the region computes them from `x` and the edge list. -/
def neighbours (x : (⟨S100000x128, .f32⟩ : BufTy).Contents (Elt Ideal)) (e : (⟨S2x1600000, .i32⟩ : BufTy).Contents (Elt Ideal)) :
    (⟨S100000x16x128, .f32⟩ : BufTy).Contents (Elt Ideal) :=
  Cert.MRConv.chain shapeCasts_S1x1600000_S1600000 shapeCasts_S1600000x128_S100000x16x128
    (extractStridedSlice S1x1600000 ![0, 0] · slices_S2x1600000_S1x1600000_0_0)
    (constantI S_ 32 0#32) (constantI S_ 32 100000#32) (broadcastInDim S1600000 ![] bcast_S_S1600000)
    (cmpi .slt) addi select
    (broadcastInDim S1600000x1 ![0] bcast_S1600000_S1600000x1_0)
    (constantI S1 32 99999#32) (constantI S_ 32 0#32) (broadcastInDim S1600000x1 ![] bcast_S_S1600000x1)
    (cmpi .sge) (broadcastInDim S1x1 ![1] bcast_S1_S1x1_1) (broadcastInDim S1600000x1 ![0, 1] bcast_S1x1_S1600000x1_0_1)
    (cmpi .sle) andi (constantI S_ 1 1#1)
    (fun x v => Host.reduce IntOp.andi x v reducesTo_S1600000x1_S1600000_d1 h_S_)
    (fun x i => Host.gather gather_S100000x128_S1600000x1_S1600000x128_1_0_n_n_0_1_1128 x i)
    (broadcastInDim S1600000x128 ![0] bcast_S1600000_S1600000x128_0)
    (constant (F := Ideal) S_ .f32 0x7FC00000#32) (broadcastInDim S1600000x128 ![] bcast_S_S1600000x128)
    select x e

/-! ## The transports between a tensor value's type and its buffer's are the identity -/

/-- Into a buffer's type and back. -/
theorem ofBuf_toBuf {T : BufTy} (x : TRef sig T) (v : T.Contents (Elt Ideal)) : x.ofBuf (x.toBuf v) = v := by
  simp only [TRef.ofBuf, TRef.toBuf, cast_cast, cast_eq]

/-- Out of the buffer of `x`. -/
theorem ofBuf_arg0 (p1 : main_arg0.ty = (⟨S100000x128, .f32⟩ : BufTy)) (p2 : main_arg0.space ≠ .host) (p3 : main_arg0.isScoped = false)
    (w : main_arg0.ty.Contents (Elt Ideal)) : (TRef.of main_arg0 p1 p2 p3 : TRef sig ⟨S100000x128, .f32⟩).ofBuf w = w := rfl

/-- Out of the buffer of the flat index vector. -/
theorem ofBuf_v1 (p1 : main_v1.ty = (⟨S1600000, .i32⟩ : BufTy)) (p2 : main_v1.space ≠ .host) (p3 : main_v1.isScoped = false)
    (w : main_v1.ty.Contents (Elt Ideal)) : (TRef.of main_v1 p1 p2 p3 : TRef sig ⟨S1600000, .i32⟩).ofBuf w = w := rfl

/-- Into the buffer of the gathered rows. -/
theorem toBuf_v2 (p1 : main_v2.ty = (⟨S1600000x128, .f32⟩ : BufTy)) (p2 : main_v2.space ≠ .host) (p3 : main_v2.isScoped = false)
    (w : (⟨S1600000x128, .f32⟩ : BufTy).Contents (Elt Ideal)) : (TRef.of main_v2 p1 p2 p3 : TRef sig ⟨S1600000x128, .f32⟩).toBuf w = w := rfl

/-! ## The arrays the region finds -/

set_option maxHeartbeats 1000000 in
/-- The second window's array at region entry is that chain of the argument arrays. -/
theorem entry_xj (c : Dev nD) :
    V m c main_v3 = neighbours (m ((c.tc : Thread nD τ).loc main_arg0)) (m ((c.tc : Thread nD τ).loc main_arg1)) := by
  dsimp only [V]
  simp only [hostOps0, hostOps0_1, hostOps0_2, List.flatten_cons, List.flatten_nil, List.append_nil, List.cons_append, List.nil_append]
  after_results_simp
  simp only [ofBuf_toBuf, ofBuf_arg0, ofBuf_v1, toBuf_v2]
  rfl

/-- The third window's array: rows 0 … 127 of `W`. -/
theorem entry_w1 (c : Dev nD) :
    V m c main_v4 = extractStridedSlice S128x128 ![0, 0] (m ((c.tc : Thread nD τ).loc main_arg2)) slices_S256x128_S128x128_0_0 := by
  dsimp only [V]
  simp only [hostOps0, hostOps0_1, hostOps0_2, List.flatten_cons, List.flatten_nil, List.append_nil, List.cons_append, List.nil_append]
  after_results

/-- The fourth window's array: rows 128 … 255 of `W`. -/
theorem entry_w2 (c : Dev nD) :
    V m c main_v5 = extractStridedSlice S128x128 ![128, 0] (m ((c.tc : Thread nD τ).loc main_arg2)) slices_S256x128_S128x128_128_0 := by
  dsimp only [V]
  simp only [hostOps0, hostOps0_1, hostOps0_2, List.flatten_cons, List.flatten_nil, List.append_nil, List.cons_append, List.nil_append]
  after_results

/-- The fifth window's array: the bias as one row. -/
theorem entry_b (c : Dev nD) :
    V m c main_v6 = shapeCast S1x128 (m ((c.tc : Thread nD τ).loc main_arg3)) shapeCasts_S128_S1x128 := by
  dsimp only [V]
  simp only [hostOps0, hostOps0_1, hostOps0_2, List.flatten_cons, List.flatten_nil, List.append_nil, List.cons_append, List.nil_append]
  after_results
  rfl

end Cert.KernelIdeal.Hand

end
-- ==== Proof.KernelBlocks.lean ====
/-
  From the kernel's blocks to its whole result array.

  The pipeline has 100 grid points; point `t` stages rows 1000·t … 1000·t+999 of `x` and of the gathered neighbour features, the
  two halves of `W` and the bias row (the same at every point), and writes back rows 1000·t … 1000·t+999 of the result.
  The gathered features, the halves of `W` and the bias row are written by host operations before the region (the entry module
  reads them as functions of the argument arrays).
  With the stored block's entries known (the payload module), every point's block is the restriction of ONE function of
  the argument arrays, `Cert.MRConv.out`, and the 100 blocks cover the array (row `r` lies in the block of point `r / 1000`).
-/
import proofs.«133552_j80358838108753_1_alg».proof.Proof.Gen.KernelIdeal.Value
import proofs.«133552_j80358838108753_1_alg».proof.Proof.KernelPayload
import proofs.«133552_j80358838108753_1_alg».proof.Proof.KernelEntry

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The index maps over the grid -/

/-- Point `t` stages block row `t` of `x`, of the neighbour features and of the result, and block 0 of the weights and the bias. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Reading an array through a window's block

A window's block view reads the array at the embedded index. Stated for an ARBITRARY array `f`, so that it is used by
rewriting and no large array is ever compared with a transported copy of itself. -/

theorem read0 (t : Fin cfg0.N) (f : ((cfg0.win 0).blk t).view.ty.Contents (Elt Ideal)) (y) :
    ((cfg0.win 0).blk t).view.read (Elt Ideal) f y = f (((cfg0.win 0).blk t).view.emb y) := rfl
theorem read1 (t : Fin cfg0.N) (f : ((cfg0.win 1).blk t).view.ty.Contents (Elt Ideal)) (y) :
    ((cfg0.win 1).blk t).view.read (Elt Ideal) f y = f (((cfg0.win 1).blk t).view.emb y) := rfl
theorem read2 (t : Fin cfg0.N) (f : ((cfg0.win 2).blk t).view.ty.Contents (Elt Ideal)) (y) :
    ((cfg0.win 2).blk t).view.read (Elt Ideal) f y = f (((cfg0.win 2).blk t).view.emb y) := rfl
theorem read3 (t : Fin cfg0.N) (f : ((cfg0.win 3).blk t).view.ty.Contents (Elt Ideal)) (y) :
    ((cfg0.win 3).blk t).view.read (Elt Ideal) f y = f (((cfg0.win 3).blk t).view.emb y) := rfl
theorem read4 (t : Fin cfg0.N) (f : ((cfg0.win 4).blk t).view.ty.Contents (Elt Ideal)) (y) :
    ((cfg0.win 4).blk t).view.read (Elt Ideal) f y = f (((cfg0.win 4).blk t).view.emb y) := rfl
theorem read5 (t : Fin cfg0.N) (f : ((cfg0.win 5).blk t).view.ty.Contents (Elt Ideal)) (y) :
    ((cfg0.win 5).blk t).view.read (Elt Ideal) f y = f (((cfg0.win 5).blk t).view.emb y) := rfl

/-! ## Each input window's block, entry by entry -/

theorem blk_x (c : Dev nD) (t : Fin cfg0.N) (p : Fin 1000) (k : Fin 128) (n : Fin 100000) (hn : n.val = 1000 * t.val + p.val) :
    iblk m c 0 t (ix2 p k) = m ((c.tc : Thread nD τ).loc main_arg0) (ix2 n k) := by
  unfold iblk
  rw [show V m c (Pipeline.arrRef spec0 (0 : Fin cfg0.W)) = m ((c.tc : Thread nD τ).loc main_arg0) from V_main_arg0 m c, read0]
  refine congrArg (m ((c.tc : Thread nD τ).loc main_arg0)) (funext fun a => Fin.ext ?_)
  obtain ⟨e0, e1, -⟩ := idx_facts t
  match a with
  | ⟨0, _⟩ => show win0_0.index t (0 : Fin 2) * 1000 + 1 * p.val = n.val; omega
  | ⟨1, _⟩ => show win0_0.index t (1 : Fin 2) * 128 + 1 * k.val = k.val; omega

theorem blk_xj (c : Dev nD) (t : Fin cfg0.N) (p : Fin 1000) (j : Fin 16) (k : Fin 128) (n : Fin 100000)
    (hn : n.val = 1000 * t.val + p.val) :
    iblk m c 1 t (ix3 p j k)
      = neighbours (m ((c.tc : Thread nD τ).loc main_arg0)) (m ((c.tc : Thread nD τ).loc main_arg1)) (ix3 n j k) := by
  unfold iblk
  rw [show V m c (Pipeline.arrRef spec0 (1 : Fin cfg0.W))
      = neighbours (m ((c.tc : Thread nD τ).loc main_arg0)) (m ((c.tc : Thread nD τ).loc main_arg1)) from entry_xj m c, read1]
  refine congrArg (neighbours (m ((c.tc : Thread nD τ).loc main_arg0)) (m ((c.tc : Thread nD τ).loc main_arg1))) (funext fun a => Fin.ext ?_)
  obtain ⟨-, -, e2, e3, e4, -⟩ := idx_facts t
  match a with
  | ⟨0, _⟩ => show win0_1.index t (0 : Fin 3) * 1000 + 1 * p.val = n.val; omega
  | ⟨1, _⟩ => show win0_1.index t (1 : Fin 3) * 16 + 1 * j.val = j.val; omega
  | ⟨2, _⟩ => show win0_1.index t (2 : Fin 3) * 128 + 1 * k.val = k.val; omega

theorem blk_w1 (c : Dev nD) (t : Fin cfg0.N) (k o : Fin 128) :
    iblk m c 2 t (ix2 k o) = m ((c.tc : Thread nD τ).loc main_arg2) (ix2 (Cert.MRConv.lo k) o) := by
  unfold iblk
  rw [show V m c (Pipeline.arrRef spec0 (2 : Fin cfg0.W))
      = extractStridedSlice S128x128 ![0, 0] (m ((c.tc : Thread nD τ).loc main_arg2)) slices_S256x128_S128x128_0_0 from entry_w1 m c, read2]
  refine (congrArg (extractStridedSlice S128x128 ![0, 0] (m ((c.tc : Thread nD τ).loc main_arg2)) slices_S256x128_S128x128_0_0)
    (funext fun a => Fin.ext ?_ : ((cfg0.win 2).blk t).view.emb (ix2 k o) = ix2 k o)).trans ?_
  · obtain ⟨-, -, -, -, -, e5, e6, -⟩ := idx_facts t
    match a with
    | ⟨0, _⟩ => show win0_2.index t (0 : Fin 2) * 128 + 1 * k.val = k.val; omega
    | ⟨1, _⟩ => show win0_2.index t (1 : Fin 2) * 128 + 1 * o.val = o.val; omega
  · exact slice2_axis0_apply 0 _ _ k o (Cert.MRConv.lo k) (by show k.val = 0 + k.val; omega)

theorem blk_w2 (c : Dev nD) (t : Fin cfg0.N) (k o : Fin 128) :
    iblk m c 3 t (ix2 k o) = m ((c.tc : Thread nD τ).loc main_arg2) (ix2 (Cert.MRConv.hi k) o) := by
  unfold iblk
  rw [show V m c (Pipeline.arrRef spec0 (3 : Fin cfg0.W))
      = extractStridedSlice S128x128 ![128, 0] (m ((c.tc : Thread nD τ).loc main_arg2)) slices_S256x128_S128x128_128_0 from entry_w2 m c, read3]
  refine (congrArg (extractStridedSlice S128x128 ![128, 0] (m ((c.tc : Thread nD τ).loc main_arg2)) slices_S256x128_S128x128_128_0)
    (funext fun a => Fin.ext ?_ : ((cfg0.win 3).blk t).view.emb (ix2 k o) = ix2 k o)).trans ?_
  · obtain ⟨-, -, -, -, -, -, -, e7, e8, -⟩ := idx_facts t
    match a with
    | ⟨0, _⟩ => show win0_3.index t (0 : Fin 2) * 128 + 1 * k.val = k.val; omega
    | ⟨1, _⟩ => show win0_3.index t (1 : Fin 2) * 128 + 1 * o.val = o.val; omega
  · exact slice2_axis0_apply 128 _ _ k o (Cert.MRConv.hi k) rfl

theorem blk_b (c : Dev nD) (t : Fin cfg0.N) (o : Fin 128) :
    iblk m c 4 t (ix2 (0 : Fin 1) o) = m ((c.tc : Thread nD τ).loc main_arg3) (ix1 o) := by
  unfold iblk
  rw [show V m c (Pipeline.arrRef spec0 (4 : Fin cfg0.W))
      = shapeCast S1x128 (m ((c.tc : Thread nD τ).loc main_arg3)) shapeCasts_S128_S1x128 from entry_b m c, read4]
  refine (congrArg (shapeCast S1x128 (m ((c.tc : Thread nD τ).loc main_arg3)) shapeCasts_S128_S1x128)
    (funext fun a => Fin.ext ?_ : ((cfg0.win 4).blk t).view.emb (ix2 (0 : Fin 1) o) = ix2 (0 : Fin 1) o)).trans ?_
  · obtain ⟨-, -, -, -, -, -, -, -, -, e9, e10, -⟩ := idx_facts t
    match a with
    | ⟨0, _⟩ => show win0_4.index t (0 : Fin 2) * 1 + 1 * 0 = 0; omega
    | ⟨1, _⟩ => show win0_4.index t (1 : Fin 2) * 128 + 1 * o.val = o.val; omega
  · exact shapeCast_a_1a_apply _ _ (0 : Fin 1) o

/-! ## What a point writes back, the cover, and the array after the run -/

/-- The result array as the specification's function of the argument arrays. -/
abbrev result (c : Dev nD) : FVec Ideal ⟨2, ![100000, 128]⟩ .f32 :=
  Cert.MRConv.out (m ((c.tc : Thread nD τ).loc main_arg0))
    (neighbours (m ((c.tc : Thread nD τ).loc main_arg0)) (m ((c.tc : Thread nD τ).loc main_arg1)))
    (m ((c.tc : Thread nD τ).loc main_arg2)) (m ((c.tc : Thread nD τ).loc main_arg3))

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` writes back block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz2]
  simp only [View.ld_unit_zero (S := S1000x128) hz2, View.ld_unit_zero (S := S1000x16x128) hz3,
    View.ld_unit_zero (S := S128x128) hz2, View.ld_unit_zero (S := S1x128) hz2]
  funext y
  obtain ⟨-, -, -, -, -, -, -, -, -, -, -, e11, e12⟩ := idx_facts t
  rw [read5]
  refine Eq.trans ?_ (out_apply (m ((c.tc : Thread nD τ).loc main_arg0))
    (neighbours (m ((c.tc : Thread nD τ).loc main_arg0)) (m ((c.tc : Thread nD τ).loc main_arg1)))
    (m ((c.tc : Thread nD τ).loc main_arg2)) (m ((c.tc : Thread nD τ).loc main_arg3)) (((cfg0.win 5).blk t).view.emb y)).symm
  exact block_value_at (m ((c.tc : Thread nD τ).loc main_arg0))
    (neighbours (m ((c.tc : Thread nD τ).loc main_arg0)) (m ((c.tc : Thread nD τ).loc main_arg1)))
    (m ((c.tc : Thread nD τ).loc main_arg2)) (m ((c.tc : Thread nD τ).loc main_arg3)) t.val
    (iblk m c 0 t) (iblk m c 1 t) (iblk m c 2 t) (iblk m c 3 t) (iblk m c 4 t)
    (fun p k n hn => blk_x m c t p k n hn) (fun p j k n hn => blk_xj m c t p j k n hn)
    (fun k o => blk_w1 m c t k o) (fun k o => blk_w2 m c t k o) (fun o => blk_b m c t o)
    ((cfg0.win 5).xinj (grid0.coords t) y) ((((cfg0.win 5).blk t).view.emb y) 0) ((((cfg0.win 5).blk t).view.emb y) 1)
    (by show win0_5.index t (0 : Fin 2) * 1000 + 1 * (y 0).val = 1000 * t.val + (y 0).val; omega)
    (by show win0_5.index t (1 : Fin 2) * 128 + 1 * (y 1).val = (y 1).val; omega)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v7).slice (win0_5.rect t)).set ↔ _
  rw [View.set_slice_whole, Rect.mem_set_unit]
  exact Iff.rfl

/-- Every entry of the array is in the block of the point `row / 1000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 1000 :=
    ⟨⟨(i 0).val / 1000, by rw [show cfg0.N = 100 from N_0]; omega⟩, rfl⟩
  obtain ⟨-, -, -, -, -, -, -, -, -, -, -, e11, e12⟩ := idx_facts t
  refine ⟨t, flush0_5 t, ?_⟩
  rw [mem_blk]
  intro a
  match a with
  | ⟨0, _⟩ =>
    show win0_5.index t (0 : Fin 2) * 1000 ≤ (i 0).val ∧ (i 0).val < win0_5.index t (0 : Fin 2) * 1000 + 1000
    omega
  | ⟨1, _⟩ =>
    show win0_5.index t (1 : Fin 2) * 128 ≤ (i 1).val ∧ (i 1).val < win0_5.index t (1 : Fin 2) * 128 + 128
    omega

/-- The result array after the run. -/
theorem final (c : Dev nD) : (dats m 0 c).arrAt 5 cfg0.N = result m c :=
  (dats m 0 c).arrAt_eq_of_cover 5 (result m c) (fun t _ => flushed_eq m c t) cover

/-- The kernel's run: the result array ends at the specification's function of the argument arrays, which are unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (Cert.KernelIdeal.Value.run_blocks m ρ)

end Cert.KernelIdeal.Hand

end
-- ==== Proof.RefRun.lean ====
/-
  The reference program's run.

  The reference is a host-only program: @main is a straight line of StableHLO operations once its three outlined
  functions are substituted at their call sites (@_take, which itself calls @_where, and @relu).  Here that straight
  line is written out as a list, operation by operation and in the printed order:

    * two operations of @main: row 0 of edge_index sliced out and reshaped to a vector of 1600000 indices;
    * the twenty-three of @_take over the call's own buffers: an index below zero is wrapped by adding 100000
      (the select that does it is @_where's single operation), the index vector is made a column, the rows of x
      are gathered at it, and a row whose index is outside [0, 99999] is filled with the word 0x7FC00000;
    * eleven of @main: the gathered rows reshaped to [100000,16,128], x broadcast along the new axis and
      subtracted, the maximum over the sixteen neighbours taken from 0xFF800000, x and that maximum concatenated
      along axis 1, the product with W, the bias broadcast and added;
    * the three of @relu: the maximum with a splat of zero.

  A straight line of host operations run on the TensorCores terminates under every weakly fair schedule, and every
  buffer ends at the fold of the operations' results over the launch contents (`StableHlo.run_seq`).  No operation
  writes an argument buffer, so the four arguments end as they began.  Everything here holds for any float values.
-/
import proofs.«133552_j80358838108753_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's thirty-nine operations in order, the calls substituted: 2 of @main, 23 of @_take (its call of @_where
    is the one select into `main_call0.call0.v0`), 11 of @main, 3 of @relu. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    -- @_take(x, row 0 of edge_index)
    TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0),
    TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select,
    -- back in @main
    reshape main_v2 main_v3 rfl shapeCasts_S1600000x128_S100000x16x128,
    unary main_arg0 main_v4 (broadcastInDim S100000x1x128 ![0, 2] bcast_S100000x128_S100000x1x128_0_2 : (⟨S100000x128, .f32⟩ : BufTy).Contents (Elt F) → (⟨S100000x1x128, .f32⟩ : BufTy).Contents (Elt F)),
    unary main_v4 main_v5 (broadcastInDim S100000x16x128 ![0, 1, 2] bcast_S100000x1x128_S100000x16x128_0_1_2 : (⟨S100000x1x128, .f32⟩ : BufTy).Contents (Elt F) → (⟨S100000x16x128, .f32⟩ : BufTy).Contents (Elt F)),
    binary main_v3 main_v5 main_v6 (subf : (⟨S100000x16x128, .f32⟩ : BufTy).Contents (Elt F) → (⟨S100000x16x128, .f32⟩ : BufTy).Contents (Elt F) → (⟨S100000x16x128, .f32⟩ : BufTy).Contents (Elt F)),
    nullary main_cst (constant S_ .f32 0xFF800000#32),
    binary main_v6 main_cst main_v7 ((fun x v => Host.reduce FloatOps.maximumf x v reducesTo_S100000x16x128_S100000x128_d1 h_S_) : (⟨S100000x16x128, .f32⟩ : BufTy).Contents (Elt F) → (⟨S_, .f32⟩ : BufTy).Contents (Elt F) → (⟨S100000x128, .f32⟩ : BufTy).Contents (Elt F)),
    binary main_arg0 main_v7 main_v8 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v8 main_arg2 main_v9 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v9 main_v11 main_v12 (addf : (⟨S100000x128, .f32⟩ : BufTy).Contents (Elt F) → (⟨S100000x128, .f32⟩ : BufTy).Contents (Elt F) → (⟨S100000x128, .f32⟩ : BufTy).Contents (Elt F)),
    -- @relu(%12)
    TRef.nullary main_call1.cst (constant S_ .f32 0x00000000#32),
    TRef.unary main_call1.cst main_call1.v0 (broadcastInDim S100000x128 ![] bcast_S_S100000x128),
    TRef.binary (.of main_v12) main_call1.v0 main_call1.v1 maximumf ]

-- the binds of the three bodies re-associated into one chain: the rewrite under the chain recurses once per statement
set_option maxRecDepth 1024 in
/-- @main is that straight line: each function's body substituted at its call and the calls' records read at their
    fields, both sides are one chain of host steps once sequencing is re-associated. -/
theorem main_eq (c : Dev nD) : main (F := F) c = seq ops := by
  simp only [main, fn_take.body, fn_where.body, fn_relu.body, seq, bind_assoc, pure_bind]

/-- The signature scopes no buffer and no semaphore: the program has no kernel region. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub .., unary_bufs_sub .., binary_bufs_sub .., nullary_bufs_sub .., binary_bufs_sub ..,
    binary_bufs_sub .., binary_bufs_sub .., unary_bufs_sub .., unary_bufs_sub .., binary_bufs_sub ..,
    nullary_bufs_sub .., unary_bufs_sub .., binary_bufs_sub ..⟩

/-- From any memory with zero counters, for any float values: every weakly fair execution of @main on the
    TensorCores terminates, and every final state has each TensorCore buffer at the fold of the operations'
    results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument buffer: the fold leaves each argument at its launch contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

end Cert.ReferenceIdeal.Hand

end
-- ==== Proof.RefValue.lean ====
/-
  What the reference computes, read on the extended reals.

  The reference is a host program (its run: RefRun.lean).  Its first twenty-six operations build, from x and
  edge_index alone, the array of gathered neighbour features [100000,16,128]: row 0 of edge_index as a vector of
  1600000 indices, an index below zero wrapped by adding 100000, the rows of x gathered at the wrapped indices, a row
  whose index falls outside [0, 99999] filled with the word 0x7FC00000, the result reshaped.  That array is carried
  here as ONE function of x and edge_index (`neighbours`) and never opened: everything after it treats it as a given
  array xj.

  The remaining thirteen operations are, at node n and output channel o,

      max( Σ_{k<256} C[n,k] · W[k,o] + b[o] , 0 ),   C = [ x | a ]  (concatenated along the channel axis),
      a[n,c] = max_{j<16} ( xj[n,j,c] − x[n,c] )   (the maximum taken from −∞, the word 0xFF800000).

  Read index by index: the product is the sum over the one contracted coordinate; that sum over the 256 rows of W
  splits into the sum over its upper 128 rows, which meet the x half of C, and the sum over its lower 128 rows, which
  meet the a half (coordinate 128 + k of the concatenation is coordinate k of its second piece); the maximum over the
  neighbour axis is a fold of the commutative, associative `max` over the sixteen coordinates of that axis; the two
  broadcasts of b and of x only repeat entries.  This is the specification's `Cert.MRConv.out`, with no finiteness
  assumed anywhere.
-/
import proofs.«133552_j80358838108753_1_alg».proof.Proof.RefRun
import proofs.«133552_j80358838108753_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The gathered neighbour features

The stages of @_take's chain, each exactly the printed operations in the printed order, none simplified; they are
stated for any float values (the chain is integer arithmetic, a gather and a select) and used below at the extended
reals. -/

/-- Row 0 of edge_index as a vector: the slice [0:1, 0:1600000], reshaped to rank one. -/
def row0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The index column @_take gathers at: an index below zero has 100000 added (the select is @_where's), then the
    vector is made a [1600000,1] column. -/
def idxCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (row0 e) (broadcastInDim S1600000 ![] bcast_S_S1600000 (constantI S_ 32 0#32)))
      (addi (row0 e) (broadcastInDim S1600000 ![] bcast_S_S1600000 (constantI S_ 32 100000#32)))
      (row0 e))

/-- Which rows of an index column lie in [0, 99999]: the two comparisons joined, reduced with `and` along the unit axis. -/
def inRangeAt (i : (⟨S1600000x1, .i32⟩ : BufTy).Contents (Elt F)) : (⟨S1600000, .i1⟩ : BufTy).Contents (Elt F) :=
  Host.reduce IntOp.andi
    (andi (cmpi .sge i (broadcastInDim S1600000x1 ![] bcast_S_S1600000x1 (constantI S_ 32 0#32)))
      (cmpi .sle i
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of x gathered at an index column, a row whose index is out of range replaced by the word 0x7FC00000 in
    every channel. -/
def takenAt (x : (⟨S100000x128, .f32⟩ : BufTy).Contents (Elt F)) (i : (⟨S1600000x1, .i32⟩ : BufTy).Contents (Elt F)) :
    (⟨S1600000x128, .f32⟩ : BufTy).Contents (Elt F) :=
  select (broadcastInDim S1600000x128 ![0] bcast_S1600000_S1600000x128_0 (inRangeAt i))
    (Host.gather gather_S100000x128_S1600000x1_S1600000x128_1_0_n_n_0_1_1128 x i)
    (broadcastInDim S1600000x128 ![] bcast_S_S1600000x128 (constant (F := F) S_ .f32 0x7FC00000#32))

/-- The gathered neighbour features [100000,16,128] as the host chain computes them from x and edge_index: the
    specification's composition (`Cert.MRConv.chain`) at the printed program's own operations, constants and shape facts,
    each in the printed order and none simplified: the slice and reshape of row 0, the wrap of negative indices (the
    select is @_where's), the index column, the range test, the gather, the fill with the word 0x7FC00000, the reshape. -/
def neighbours (x : (⟨S100000x128, .f32⟩ : BufTy).Contents (Elt Ideal)) (e : (⟨S2x1600000, .i32⟩ : BufTy).Contents (Elt Ideal)) :
    (⟨S100000x16x128, .f32⟩ : BufTy).Contents (Elt Ideal) :=
  Cert.MRConv.chain shapeCasts_S1x1600000_S1600000 shapeCasts_S1600000x128_S100000x16x128
    (extractStridedSlice S1x1600000 ![0, 0] · slices_S2x1600000_S1x1600000_0_0)
    (constantI S_ 32 0#32) (constantI S_ 32 100000#32)
    (broadcastInDim S1600000 ![] bcast_S_S1600000)
    (cmpi .slt) addi select
    (broadcastInDim S1600000x1 ![0] bcast_S1600000_S1600000x1_0)
    (constantI S1 32 99999#32) (constantI S_ 32 0#32)
    (broadcastInDim S1600000x1 ![] bcast_S_S1600000x1)
    (cmpi .sge)
    (broadcastInDim S1x1 ![1] bcast_S1_S1x1_1)
    (broadcastInDim S1600000x1 ![0, 1] bcast_S1x1_S1600000x1_0_1)
    (cmpi .sle) andi (constantI S_ 1 1#1)
    (fun x v => Host.reduce IntOp.andi x v reducesTo_S1600000x1_S1600000_d1 h_S_)
    (fun x i => Host.gather gather_S100000x128_S1600000x1_S1600000x128_1_0_n_n_0_1_1128 x i)
    (broadcastInDim S1600000x128 ![0] bcast_S1600000_S1600000x128_0)
    (constant (F := Ideal) S_ .f32 0x7FC00000#32)
    (broadcastInDim S1600000x128 ![] bcast_S_S1600000x128)
    select x e

/-- That composition is the stages above in a row: both sides unfold to the same term, operation by operation. -/
theorem neighbours_eq (x : (⟨S100000x128, .f32⟩ : BufTy).Contents (Elt Ideal)) (e : (⟨S2x1600000, .i32⟩ : BufTy).Contents (Elt Ideal)) :
    neighbours x e = shapeCast S100000x16x128 (takenAt x (idxCol e)) shapeCasts_S1600000x128_S100000x16x128 := rfl

/-! ## The rest of the chain, over a given array of neighbour features -/

/-- The max-relative features as the program builds them: x broadcast along a new neighbour axis, subtracted from
    xj, and the maximum over that axis taken from the word 0xFF800000. -/
def aggrT (x : (⟨S100000x128, .f32⟩ : BufTy).Contents (Elt F)) (xj : (⟨S100000x16x128, .f32⟩ : BufTy).Contents (Elt F)) :
    (⟨S100000x128, .f32⟩ : BufTy).Contents (Elt F) :=
  Host.reduce FloatOps.maximumf
    (subf xj
      (broadcastInDim S100000x16x128 ![0, 1, 2] bcast_S100000x1x128_S100000x16x128_0_1_2
        (broadcastInDim S100000x1x128 ![0, 2] bcast_S100000x128_S100000x1x128_0_2 x)))
    (constant (F := F) S_ .f32 0xFF800000#32) reducesTo_S100000x16x128_S100000x128_d1 h_S_

/-- The last eight operations over x and a given array a of aggregated features: [ x | a ] times W, plus the bias
    repeated down the rows, and the maximum with a splat of zero. -/
def tailOf (x a : (⟨S100000x128, .f32⟩ : BufTy).Contents (Elt F)) (W : (⟨S256x128, .f32⟩ : BufTy).Contents (Elt F))
    (b : (⟨S128, .f32⟩ : BufTy).Contents (Elt F)) : (⟨S100000x128, .f32⟩ : BufTy).Contents (Elt F) :=
  maximumf
    (addf
      (Host.dotGeneral dot_S100000x256_S256x128_S100000x128_1_0_0_1_n_n none
        (concatenate S100000x256 1 [⟨S100000x128, x⟩, ⟨S100000x128, a⟩] concatenates_S100000x128_S100000x128_S100000x256_d1)
        W)
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The thirteen operations after the reshape, as one term of the four arrays. -/
def tail (x : (⟨S100000x128, .f32⟩ : BufTy).Contents (Elt F)) (xj : (⟨S100000x16x128, .f32⟩ : BufTy).Contents (Elt F))
    (W : (⟨S256x128, .f32⟩ : BufTy).Contents (Elt F)) (b : (⟨S128, .f32⟩ : BufTy).Contents (Elt F)) :
    (⟨S100000x128, .f32⟩ : BufTy).Contents (Elt F) :=
  tailOf x (aggrT x xj) W b

/-! ## The list of operations in four stretches -/

/-- Through the index column: the slice, the reshape, the wrap of negative indices, the column. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0) ]

/-- The rest of @_take: the range test, the gather, the fill. -/
abbrev opsB : List (HloOp τ sig (Elt F)) :=
  [ TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select ]

/-- The reshape, the subtraction of x and the maximum over the neighbour axis. -/
abbrev opsC : List (HloOp τ sig (Elt F)) :=
  [ reshape main_v2 main_v3 rfl shapeCasts_S1600000x128_S100000x16x128,
    unary main_arg0 main_v4 (broadcastInDim S100000x1x128 ![0, 2] bcast_S100000x128_S100000x1x128_0_2 : (⟨S100000x128, .f32⟩ : BufTy).Contents (Elt F) → (⟨S100000x1x128, .f32⟩ : BufTy).Contents (Elt F)),
    unary main_v4 main_v5 (broadcastInDim S100000x16x128 ![0, 1, 2] bcast_S100000x1x128_S100000x16x128_0_1_2 : (⟨S100000x1x128, .f32⟩ : BufTy).Contents (Elt F) → (⟨S100000x16x128, .f32⟩ : BufTy).Contents (Elt F)),
    binary main_v3 main_v5 main_v6 (subf : (⟨S100000x16x128, .f32⟩ : BufTy).Contents (Elt F) → (⟨S100000x16x128, .f32⟩ : BufTy).Contents (Elt F) → (⟨S100000x16x128, .f32⟩ : BufTy).Contents (Elt F)),
    nullary main_cst (constant S_ .f32 0xFF800000#32),
    binary main_v6 main_cst main_v7 ((fun x v => Host.reduce FloatOps.maximumf x v reducesTo_S100000x16x128_S100000x128_d1 h_S_) : (⟨S100000x16x128, .f32⟩ : BufTy).Contents (Elt F) → (⟨S_, .f32⟩ : BufTy).Contents (Elt F) → (⟨S100000x128, .f32⟩ : BufTy).Contents (Elt F)) ]

/-- The concatenation, the product, the bias and the maximum with zero. -/
abbrev opsD : List (HloOp τ sig (Elt F)) :=
  [ binary main_arg0 main_v7 main_v8 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v8 main_arg2 main_v9 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v9 main_v11 main_v12 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v12) main_call1.v0 main_call1.v1 maximumf ]

/-- The thirty-nine operations are those four stretches in a row. -/
theorem ops_split : (ops (F := F)) = opsA ++ (opsB ++ (opsC ++ opsD)) := rfl

/-- A fold over two lists in a row is the second's fold after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The typed references' transports, removed by rewriting

A typed reference moves contents between the value's type and its buffer's type along an equation of types; at a
literal reference the two types compute to the same one.  These transports are taken out by rewriting, never by
unfolding a large term: a transport there and back is the identity for every typed reference, and at each reference
where a typed and an untyped operation meet the transport of a VARIABLE is that variable. -/

theorem ofBuf_toBuf {T : BufTy} (x : TRef sig T) (v : T.Contents (Elt F)) : x.ofBuf (x.toBuf v) = v := by
  simp only [TRef.ofBuf, TRef.toBuf, cast_cast, cast_eq]

theorem ofBuf_v1 (p1 : main_v1.ty = (⟨S1600000, .i32⟩ : BufTy)) (p2 : main_v1.space ≠ .host) (p3 : main_v1.isScoped = false)
    (w : (⟨S1600000, .i32⟩ : BufTy).Contents (Elt F)) : (TRef.of main_v1 p1 p2 p3).ofBuf w = w := rfl
theorem ofBuf_arg0 (p1 : main_arg0.ty = (⟨S100000x128, .f32⟩ : BufTy)) (p2 : main_arg0.space ≠ .host) (p3 : main_arg0.isScoped = false)
    (w : (⟨S100000x128, .f32⟩ : BufTy).Contents (Elt F)) : (TRef.of main_arg0 p1 p2 p3).ofBuf w = w := rfl
theorem ofBuf_v5 (p1 : main_call0_v5.ty = (⟨S1600000x1, .i32⟩ : BufTy)) (p2 : main_call0_v5.space ≠ .host) (p3 : main_call0_v5.isScoped = false)
    (w : (⟨S1600000x1, .i32⟩ : BufTy).Contents (Elt F)) : (TRef.of main_call0_v5 p1 p2 p3).ofBuf w = w := rfl
theorem toBuf_v5 (p1 : main_call0_v5.ty = (⟨S1600000x1, .i32⟩ : BufTy)) (p2 : main_call0_v5.space ≠ .host) (p3 : main_call0_v5.isScoped = false)
    (w : (⟨S1600000x1, .i32⟩ : BufTy).Contents (Elt F)) : (TRef.of main_call0_v5 p1 p2 p3).toBuf w = w := rfl
theorem toBuf_v2 (p1 : main_v2.ty = (⟨S1600000x128, .f32⟩ : BufTy)) (p2 : main_v2.space ≠ .host) (p3 : main_v2.isScoped = false)
    (w : (⟨S1600000x128, .f32⟩ : BufTy).Contents (Elt F)) : (TRef.of main_v2 p1 p2 p3).toBuf w = w := rfl
theorem ofBuf_v12 (p1 : main_v12.ty = (⟨S100000x128, .f32⟩ : BufTy)) (p2 : main_v12.space ≠ .host) (p3 : main_v12.isScoped = false)
    (w : (⟨S100000x128, .f32⟩ : BufTy).Contents (Elt F)) : (TRef.of main_v12 p1 p2 p3).ofBuf w = w := rfl
theorem toBuf_v13 (p1 : main_v13.ty = (⟨S100000x128, .f32⟩ : BufTy)) (p2 : main_v13.space ≠ .host) (p3 : main_v13.isScoped = false)
    (w : (⟨S100000x128, .f32⟩ : BufTy).Contents (Elt F)) : (TRef.of main_v13 p1 p2 p3).toBuf w = w := rfl

/-! ## Each stretch read over any contents

For any float values and any contents `V` before the stretch: the fold of the stretch's operations at the buffer it
produces is the stage's function of `V` at the buffers it reads, and the argument buffers keep their contents.  The
fold is evaluated by rewriting (each operation's result at its own buffer is its function's value, at any other
buffer what was there), the transports by the lemmas above; what is left to compare is the same term twice. -/

set_option maxHeartbeats 400000 in
theorem segA (V : Valuation τ sig (Elt F)) :
    after (opsA (F := F)) V (main_call0_v5 : DevRef τ sig) = idxCol (V (main_arg1 : DevRef τ sig)) := by
  after_results_simp
  simp only [ofBuf_toBuf, ofBuf_v1, toBuf_v5]
  rfl
theorem segA_arg0 (V : Valuation τ sig (Elt F)) :
    after (opsA (F := F)) V (main_arg0 : DevRef τ sig) = (V (main_arg0 : DevRef τ sig)) := by
  after_results_simp
theorem segA_arg2 (V : Valuation τ sig (Elt F)) :
    after (opsA (F := F)) V (main_arg2 : DevRef τ sig) = (V (main_arg2 : DevRef τ sig)) := by
  after_results_simp
theorem segA_arg3 (V : Valuation τ sig (Elt F)) :
    after (opsA (F := F)) V (main_arg3 : DevRef τ sig) = (V (main_arg3 : DevRef τ sig)) := by
  after_results_simp

set_option maxHeartbeats 400000 in
theorem segB (V : Valuation τ sig (Elt F)) :
    after (opsB (F := F)) V (main_v2 : DevRef τ sig) = takenAt (V (main_arg0 : DevRef τ sig)) (V (main_call0_v5 : DevRef τ sig)) := by
  after_results_simp
  simp only [ofBuf_toBuf, ofBuf_v5, ofBuf_arg0, toBuf_v2]
  rfl
theorem segB_arg0 (V : Valuation τ sig (Elt F)) :
    after (opsB (F := F)) V (main_arg0 : DevRef τ sig) = (V (main_arg0 : DevRef τ sig)) := by
  after_results_simp
theorem segB_arg2 (V : Valuation τ sig (Elt F)) :
    after (opsB (F := F)) V (main_arg2 : DevRef τ sig) = (V (main_arg2 : DevRef τ sig)) := by
  after_results_simp
theorem segB_arg3 (V : Valuation τ sig (Elt F)) :
    after (opsB (F := F)) V (main_arg3 : DevRef τ sig) = (V (main_arg3 : DevRef τ sig)) := by
  after_results_simp

set_option maxHeartbeats 400000 in
theorem segC (V : Valuation τ sig (Elt F)) :
    after (opsC (F := F)) V (main_v7 : DevRef τ sig)
      = aggrT (V (main_arg0 : DevRef τ sig)) (shapeCast S100000x16x128 (V (main_v2 : DevRef τ sig)) shapeCasts_S1600000x128_S100000x16x128) := by
  after_results_simp
  rfl
theorem segC_arg0 (V : Valuation τ sig (Elt F)) :
    after (opsC (F := F)) V (main_arg0 : DevRef τ sig) = (V (main_arg0 : DevRef τ sig)) := by
  after_results_simp
theorem segC_arg2 (V : Valuation τ sig (Elt F)) :
    after (opsC (F := F)) V (main_arg2 : DevRef τ sig) = (V (main_arg2 : DevRef τ sig)) := by
  after_results_simp
theorem segC_arg3 (V : Valuation τ sig (Elt F)) :
    after (opsC (F := F)) V (main_arg3 : DevRef τ sig) = (V (main_arg3 : DevRef τ sig)) := by
  after_results_simp

set_option maxHeartbeats 400000 in
theorem segD (V : Valuation τ sig (Elt F)) :
    after (opsD (F := F)) V (main_v13 : DevRef τ sig)
      = tailOf (V (main_arg0 : DevRef τ sig)) (V (main_v7 : DevRef τ sig)) (V (main_arg2 : DevRef τ sig)) (V (main_arg3 : DevRef τ sig)) := by
  after_results_simp
  simp only [ofBuf_toBuf, ofBuf_v12, toBuf_v13]
  rfl

/-! ## The four stretches in a row -/

/-- The fold of all thirty-nine operations at the result buffer: the tail over the reshaped result of @_take. -/
theorem out_eq_any (V : Valuation τ sig (Elt F)) :
    after (ops (F := F)) V (main_v13 : DevRef τ sig)
      = tail (V (main_arg0 : DevRef τ sig))
          (shapeCast S100000x16x128 (takenAt (V (main_arg0 : DevRef τ sig)) (idxCol (V (main_arg1 : DevRef τ sig)))) shapeCasts_S1600000x128_S100000x16x128)
          (V (main_arg2 : DevRef τ sig)) (V (main_arg3 : DevRef τ sig)) := by
  rw [ops_split, after_app, after_app, after_app, segD, segC, segC_arg0, segC_arg2, segC_arg3,
    segB, segB_arg0, segB_arg2, segB_arg3, segA, segA_arg0, segA_arg2, segA_arg3]
  rfl

/-- The same at the extended reals, the reshaped result of @_take named. -/
theorem out_eq (V : Valuation τ sig (Elt Ideal)) :
    after (ops (F := Ideal)) V (main_v13 : DevRef τ sig)
      = tail (V (main_arg0 : DevRef τ sig)) (neighbours (V (main_arg0 : DevRef τ sig)) (V (main_arg1 : DevRef τ sig))) (V (main_arg2 : DevRef τ sig)) (V (main_arg3 : DevRef τ sig)) :=
  (out_eq_any V).trans (by rw [neighbours_eq])

/-! ## The broadcasts, read at an index -/

/-- x repeated along the neighbour axis (through a unit axis), read at (n, j, c), is x at (n, c). -/
theorem bcast_x_apply (x : FVec Ideal S100000x128 .f32) (n : Fin 100000) (j : Fin 16) (c : Fin 128) :
    broadcastInDim S100000x16x128 ![0, 1, 2] bcast_S100000x1x128_S100000x16x128_0_1_2
        (broadcastInDim S100000x1x128 ![0, 2] bcast_S100000x128_S100000x1x128_0_2 x) (ix3 n j c) = x (ix2 n c) := by
  have e1 := broadcastInDim_apply ![0, 1, 2] bcast_S100000x1x128_S100000x16x128_0_1_2
    (broadcastInDim S100000x1x128 ![0, 2] bcast_S100000x128_S100000x1x128_0_2 x) (ix3 n j c) (ix3 n (0 : Fin 1) c) (by
      intro a
      match a with
      | ⟨0, _⟩ => rfl
      | ⟨1, _⟩ => rfl
      | ⟨2, _⟩ => rfl)
  have e2 := broadcastInDim_apply ![0, 2] bcast_S100000x128_S100000x1x128_0_2 x (ix3 n (0 : Fin 1) c) (ix2 n c) (by
      intro a
      match a with
      | ⟨0, _⟩ => rfl
      | ⟨1, _⟩ => rfl)
  exact e1.trans e2

/-- The bias repeated down the rows (through a unit axis), read at (n, o), is b at o. -/
theorem bcast_b_apply (b : FVec Ideal S128 .f32) (n : Fin 100000) (o : Fin 128) :
    broadcastInDim S100000x128 ![0, 1] bcast_S1x128_S100000x128_0_1 (broadcastInDim S1x128 ![1] bcast_S128_S1x128_1 b) (ix2 n o)
      = b (ix1 o) := by
  have e1 := broadcastInDim_apply ![0, 1] bcast_S1x128_S100000x128_0_1 (broadcastInDim S1x128 ![1] bcast_S128_S1x128_1 b)
    (ix2 n o) (ix2 (0 : Fin 1) o) (by
      intro a
      match a with
      | ⟨0, _⟩ => rfl
      | ⟨1, _⟩ => rfl)
  have e2 := broadcastInDim_apply ![1] bcast_S128_S1x128_1 b (ix2 (0 : Fin 1) o) (ix1 o) (by
      intro a
      match a with
      | ⟨0, _⟩ => rfl)
  exact e1.trans e2

/-- The splat of zero, read anywhere, is zero's word. -/
theorem splat_zero_apply (n : Fin 100000) (o : Fin 128) :
    broadcastInDim S100000x128 ![] bcast_S_S100000x128 (constant (F := Ideal) S_ .f32 0x00000000#32) (ix2 n o)
      = Ideal.ofBits .f32 0x00000000#32 :=
  broadcastInDim_apply ![] bcast_S_S100000x128 (constant (F := Ideal) S_ .f32 0x00000000#32) (ix2 n o) ix0 (fun a => a.elim0)

/-! ## The maximum over the neighbour axis -/

theorem reduces_nbr : S100000x16x128.Reduces [1] S100000x128 := by decide

/-- The index of [100000,16,128] that drops to (n, c) with neighbour coordinate j is (n, j, c). -/
theorem lift_nbr (n : Fin 100000) (c : Fin 128) (j : Fin 16) :
    reduces_nbr.lift (ix2 n c) j = ix3 n j c := by
  funext a
  apply Fin.ext
  match a with
  | ⟨0, _⟩ => rfl
  | ⟨1, _⟩ => rfl
  | ⟨2, _⟩ => rfl

/-- One term of that fold: the difference read at the inserted index. -/
theorem diff_apply (x : FVec Ideal S100000x128 .f32) (xj : FVec Ideal S100000x16x128 .f32) (n : Fin 100000) (c : Fin 128) (j : Fin 16) :
    subf xj
        (broadcastInDim S100000x16x128 ![0, 1, 2] bcast_S100000x1x128_S100000x16x128_0_1_2
          (broadcastInDim S100000x1x128 ![0, 2] bcast_S100000x128_S100000x1x128_0_2 x))
        (reduces_nbr.lift (ix2 n c) j)
      = xj (ix3 n j c) - x (ix2 n c) := by
  rw [lift_nbr, subf_apply, bcast_x_apply]

/-- The program's max-relative feature at (n, c) is the specification's: the fold of `max` over the sixteen
    neighbour coordinates (the reduction's body commutes and associates), each term xj[n,j,c] − x[n,c]. -/
theorem aggrT_apply (x : FVec Ideal S100000x128 .f32) (xj : FVec Ideal S100000x16x128 .f32) (n : Fin 100000) (c : Fin 128) :
    aggrT (F := Ideal) x xj (ix2 n c) = Cert.MRConv.aggr x xj n c := by
  unfold aggrT
  rw [Host.reduce_eq_fold_single FloatOps.maximumf _ _ reducesTo_S100000x16x128_S100000x128_d1 reduces_nbr h_S_ (ix2 n c)]
  unfold Cert.MRConv.aggr
  refine Finset.fold_congr ?_
  intro j _
  exact diff_apply x xj n c j

/-! ## The product, read at an index -/

/-- Where the product reads its operands: the left operand's row is the result's row, its column the contracted
    coordinate; the right operand's row is the contracted coordinate, its column the result's column. -/
theorem lhs_dot_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide),
    dif_pos (show (0 : Fin S100000x256.rank) ∈ dot_S100000x256_S256x128_S100000x128_1_0_0_1_n_n.lhsNonContracting by decide)]
  rfl
theorem lhs_dot_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem rhs_dot_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem rhs_dot_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide),
    dif_pos (show (1 : Fin S256x128.rank) ∈ dot_S100000x256_S256x128_S100000x128_1_0_0_1_n_n.rhsNonContracting by decide)]
  rfl

/-- On the extended reals the host's product at (n, o) is the sum over the 256 contracted coordinates. -/
theorem dot_apply (C : FVec Ideal S100000x256 .f32) (W : FVec Ideal S256x128 .f32) (n : Fin 100000) (o : Fin 128) :
    Host.dotGeneral dot_S100000x256_S256x128_S100000x128_1_0_0_1_n_n none C W (ix2 n o)
      = ∑ k : Fin 256, C (ix2 n k) * W (ix2 k o) := by
  simp only [Host.dotGeneral]
  rw [Ideal.dotGeneral_apply, ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx (ix2 n o)
      ((contrEquiv1 dot_S100000x256_S256x128_S100000x128_1_0_0_1_n_n 256 rfl rfl).symm k) = ix2 n k := funext fun a => Fin.ext (by
    match a with
    | ⟨0, _⟩ => exact lhs_dot_0 _ _
    | ⟨1, _⟩ => exact (lhs_dot_1 _ _).trans hk)
  have er : dot_S100000x256_S256x128_S100000x128_1_0_0_1_n_n.rhsIdx (ix2 n o)
      ((contrEquiv1 dot_S100000x256_S256x128_S100000x128_1_0_0_1_n_n 256 rfl rfl).symm k) = ix2 k o := funext fun a => Fin.ext (by
    match a with
    | ⟨0, _⟩ => exact (rhs_dot_0 _ _).trans hk
    | ⟨1, _⟩ => exact rhs_dot_1 _ _)
  rw [el, er]

/-! ## The concatenation, read in each half -/

/-- Column k < 128 of [ x | a ] is column k of x. -/
theorem concat_lo (x a : FVec Ideal S100000x128 .f32) (n : Fin 100000) (k : Fin 128) :
    concatenate S100000x256 1 [⟨S100000x128, x⟩, ⟨S100000x128, a⟩] concatenates_S100000x128_S100000x128_S100000x256_d1
        (ix2 n (Cert.MRConv.lo k)) = x (ix2 n k) :=
  concatenate_pair_apply_left (1 : Fin S100000x256.rank) x a concatenates_S100000x128_S100000x128_S100000x256_d1
    (ix2 n (Cert.MRConv.lo k)) rfl (ix2 n k) (by
      intro b
      match b with
      | ⟨0, _⟩ => rfl
      | ⟨1, _⟩ => rfl)

/-- Column 128 + k of [ x | a ] is column k of a. -/
theorem concat_hi (x a : FVec Ideal S100000x128 .f32) (n : Fin 100000) (k : Fin 128) :
    concatenate S100000x256 1 [⟨S100000x128, x⟩, ⟨S100000x128, a⟩] concatenates_S100000x128_S100000x128_S100000x256_d1
        (ix2 n (Cert.MRConv.hi k)) = a (ix2 n k) :=
  concatenate_pair_apply_right (1 : Fin S100000x256.rank) x a concatenates_S100000x128_S100000x128_S100000x256_d1
    (ix2 n (Cert.MRConv.hi k)) rfl rfl (ix2 n k) (by
      intro b hb
      match b, hb with
      | ⟨0, _⟩, _ => rfl
      | ⟨1, _⟩, hb => exact absurd rfl hb)
    (by show k.val + 128 = 128 + k.val; omega)

/-! ## The whole tail -/

/-- The thirteen operations after the reshape compute the specification's result, entry by entry: the product's sum
    over the 256 rows of W split into its two halves, the upper half against x and the lower against the
    max-relative features, the bias added and the maximum with zero taken. -/
theorem tail_eq (x : FVec Ideal S100000x128 .f32) (xj : FVec Ideal S100000x16x128 .f32) (W : FVec Ideal S256x128 .f32)
    (b : FVec Ideal S128 .f32) : tail (F := Ideal) x xj W b = Cert.MRConv.out x xj W b := by
  funext i
  obtain ⟨n, o, rfl⟩ : ∃ (n : Fin 100000) (o : Fin 128), i = ix2 n o := ⟨i 0, i 1, eq_ix2 i⟩
  show _ = Cert.MRConv.outAt x xj W b n o
  unfold tail tailOf Cert.MRConv.outAt
  rw [maximumf_apply, addf_apply, splat_zero_apply, bcast_b_apply, dot_apply, Cert.MRConv.sum_rows]
  simp only [concat_lo, concat_hi, aggrT_apply]

/-! ## The run -/

/-- From any memory with zero counters, at the extended reals: every weakly fair execution of the reference
    terminates with the result buffer at the specification's value of the four arguments' launch contents and of the
    neighbour features gathered from them, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Cert.MRConv.out (m ((c.tc : Thread nD τ).loc main_arg0)) (neighbours (m ((c.tc : Thread nD τ).loc main_arg0)) (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c main_v13).trans ((out_eq _).trans (tail_eq _ _ _ _)),
        (h c main_arg0).trans (arg0_eq _), (h c main_arg1).trans (arg1_eq _),
        (h c main_arg2).trans (arg2_eq _), (h c main_arg3).trans (arg3_eq _)⟩)
    (run_all m ρ)

end Cert.ReferenceIdeal.Hand

end
-- ==== Proof.lean ====
/-
  The certificate of a max-relative graph convolution against its jnp reference, over the extended reals.

  Both programs gather, for each of the 100000 nodes, the feature rows of its sixteen neighbours (the same host chain, named
  `neighbours` on each side and never opened), take a[n,k] = max_j (xj[n,j,k] − x[n,k]) from −∞, and return
  max([x, a] · W + b, 0). The kernel computes the product as x · W[0:128] + a · W[128:256] on blocks of 1000 nodes, narrowing
  the operands of its two matrix products first; the reference concatenates [x, a] and takes one product with W. On the
  extended reals the narrowing is the identity and a sum over the 256 rows of W is the sum over its two halves (a law of
  commutative monoids: no finiteness is used), so both result arrays are one function of the arguments, `Cert.MRConv.out`.

  The frames of the two kernel programs are the generated ones; the reference's frame is its run with the result dropped.
  The idealized kernel is the kernel's own text read on the extended reals: nothing was rewritten, so `preserves` is trivial.
-/
import proofs.«133552_j80358838108753_1_alg».proof.Defs
import proofs.«133552_j80358838108753_1_alg».proof.Proof.Gen.Kernel
import proofs.«133552_j80358838108753_1_alg».proof.Proof.Gen.Kernel.Frame
import proofs.«133552_j80358838108753_1_alg».proof.Proof.Gen.KernelIdeal
import proofs.«133552_j80358838108753_1_alg».proof.Proof.Gen.KernelIdeal.Frame
import proofs.«133552_j80358838108753_1_alg».proof.Proof.Gen.ReferenceIdeal
import proofs.«133552_j80358838108753_1_alg».proof.Proof.Gen.Pre_finite_inputs
import proofs.«133552_j80358838108753_1_alg».proof.Proof.KernelBlocks
import proofs.«133552_j80358838108753_1_alg».proof.Proof.RefValue
import Idealize.ShloMosaic.Adequacy
import Idealize.ShloMosaic.Init

noncomputable section

namespace Cert.Proof

open Idealize.ShloMosaic Idealize.SL.Sem

/-- The two programs apply the same chain of host operations to `x` and the edge list: operation by operation the two
    spellings agree. -/
theorem neighbours_eq (x : (⟨Cert.KernelIdeal.S100000x128, .f32⟩ : BufTy).Contents (Elt Ideal))
    (e : (⟨Cert.KernelIdeal.S2x1600000, .i32⟩ : BufTy).Contents (Elt Ideal)) :
    Cert.ReferenceIdeal.Hand.neighbours x e = Cert.KernelIdeal.Hand.neighbours x e := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- Both runs end with the result array at `Cert.MRConv.out` of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2, neighbours_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
